-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x500000 : Shape := ⟨2, ![2, 500000]⟩
abbrev S256x512 : Shape := ⟨2, ![256, 512]⟩
abbrev S256 : Shape := ⟨1, ![256]⟩
abbrev S1x256 : Shape := ⟨2, ![1, 256]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_
  bcast_S_S2x500000 : S_.BroadcastsInDim S2x500000 (![] : Fin 0 → Fin S2x500000.rank)
  reducesTo_S2x500000_S_d0_1 : S2x500000.ReducesTo [0, 1] S_

variable [Facts]

def fn_part2 {F : FTy → Type} [FloatOps F] (main_v28 : IVec S_ 1) (main_v33 : IVec S2x500000 1) : IVec S_ 1 :=
  let main_c_12 : IVec S_ 1 := constantI S_ 1 1#1
  let main_v34 : IVec S_ 1 := (fun x v => Host.reduce IntOp.andi x v reducesTo_S2x500000_S_d0_1 h_S_) main_v33 main_c_12
  let main_v35 : IVec S_ 1 := andi main_v28 main_v34
  main_v35

def fn_part1 {F : FTy → Type} [FloatOps F] (main_arg2 : IVec S2x500000 32) (main_arg5 : FVec F S1x256 .f32) (main_arg6 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S1x256 .f32 := Host.absf main_arg5
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_c_10 : IVec S_ 32 := constantI S_ 32 4294867296#32
  let main_v29 : IVec S2x500000 32 := broadcastInDim S2x500000 ![] bcast_S_S2x500000 main_c_10
  let main_v30 : IVec S2x500000 1 := cmpi .sge main_arg2 main_v29
  let main_c_11 : IVec S_ 32 := constantI S_ 32 100000#32
  let main_v31 : IVec S2x500000 32 := broadcastInDim S2x500000 ![] bcast_S_S2x500000 main_c_11
  let main_v32 : IVec S2x500000 1 := cmpi .slt main_arg2 main_v31
  let main_v33 : IVec S2x500000 1 := andi main_v30 main_v32
  fn_part2 (F := F) main_v28 main_v33

def fn {F : FTy → Type} [FloatOps F] (main_arg0 : FVec F S100000x256 .f32) (main_arg1 : FVec F S100000x256 .f32) (main_arg2 : IVec S2x500000 32) (main_arg3 : FVec F S256x512 .f32) (main_arg4 : FVec F S256 .f32) (main_arg5 : FVec F S1x256 .f32) (main_arg6 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S256x512 .f32 := Host.absf main_arg3
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg5 main_arg6 main_v13 main_v16
-- ==== Kernel.lean ====
abbrev S100000x256 : Shape := ⟨2, ![100000, 256]⟩
abbrev S2x500000 : Shape := ⟨2, ![2, 500000]⟩
abbrev S256x512 : Shape := ⟨2, ![256, 512]⟩
abbrev S256 : Shape := ⟨1, ![256]⟩
abbrev S1x256 : Shape := ⟨2, ![1, 256]⟩
abbrev S1 : Shape := ⟨1, ![1]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S1x1 : Shape := ⟨2, ![1, 1]⟩
abbrev S500000x256 : Shape := ⟨2, ![500000, 256]⟩
abbrev S256x256 : Shape := ⟨2, ![256, 256]⟩
abbrev S256x1 : Shape := ⟨2, ![256, 1]⟩
abbrev S5000x256 : Shape := ⟨2, ![5000, 256]⟩
abbrev S5000x1 : Shape := ⟨2, ![5000, 1]⟩

abbrev nBuf : Space → Nat
  | .hbm => 66
  | .vmem => 11
  | .smem => 0
  | _ => 0

abbrev bufTy : (tb : Table) → Fin (tcTables nBuf tb) → BufTy
  | .hbm, ⟨0, _⟩ => ⟨S100000x256, .f32⟩
  | .hbm, ⟨1, _⟩ => ⟨S100000x256, .f32⟩
  | .hbm, ⟨2, _⟩ => ⟨S2x500000, .i32⟩
  | .hbm, ⟨3, _⟩ => ⟨S256x512, .f32⟩
  | .hbm, ⟨4, _⟩ => ⟨S256, .f32⟩
  | .hbm, ⟨5, _⟩ => ⟨S1x256, .f32⟩
  | .hbm, ⟨6, _⟩ => ⟨S1, .f32⟩
  | .hbm, ⟨7, _⟩ => ⟨S1x500000, .i32⟩
  | .hbm, ⟨8, _⟩ => ⟨S500000, .i32⟩
  | .hbm, ⟨9, _⟩ => ⟨S1x500000, .i32⟩
  | .hbm, ⟨10, _⟩ => ⟨S500000, .i32⟩
  | .hbm, ⟨11, _⟩ => ⟨S_, .i32⟩
  | .hbm, ⟨12, _⟩ => ⟨S500000, .i32⟩
  | .hbm, ⟨13, _⟩ => ⟨S500000, .i1⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S500000, .i32⟩
  | .hbm, ⟨18, _⟩ => ⟨S500000x1, .i32⟩
  | .hbm, ⟨19, _⟩ => ⟨S1, .i32⟩
  | .hbm, ⟨20, _⟩ => ⟨S_, .i32⟩
  | .hbm, ⟨21, _⟩ => ⟨S500000x1, .i32⟩
  | .hbm, ⟨22, _⟩ => ⟨S500000x1, .i1⟩
  | .hbm, ⟨23, _⟩ => ⟨S1x1, .i32⟩
  | .hbm, ⟨24, _⟩ => ⟨S500000x1, .i32⟩
  | .hbm, ⟨25, _⟩ => ⟨S500000x1, .i1⟩
  | .hbm, ⟨26, _⟩ => ⟨S500000x1, .i1⟩
  | .hbm, ⟨27, _⟩ => ⟨S_, .i1⟩
  | .hbm, ⟨28, _⟩ => ⟨S500000, .i1⟩
  | .hbm, ⟨29, _⟩ => ⟨S500000x256, .f32⟩
  | .hbm, ⟨30, _⟩ => ⟨S500000x256, .i1⟩
  | .hbm, ⟨31, _⟩ => ⟨S_, .f32⟩
  | .hbm, ⟨32, _⟩ => ⟨S500000x256, .f32⟩
  | .hbm, ⟨33, _⟩ => ⟨S500000x256, .f32⟩
  | .hbm, ⟨34, _⟩ => ⟨S_, .i32⟩
  | .hbm, ⟨35, _⟩ => ⟨S500000, .i32⟩
  | .hbm, ⟨36, _⟩ => ⟨S500000, .i1⟩
  | .hbm, ⟨37, _⟩ => ⟨S_, .i32⟩
  | .hbm, ⟨38, _⟩ => ⟨S500000, .i32⟩
  | .hbm, ⟨39, _⟩ => ⟨S500000, .i32⟩
  | .hbm, ⟨40, _⟩ => ⟨S500000, .i32⟩
  | .hbm, ⟨41, _⟩ => ⟨S500000x1, .i32⟩
  | .hbm, ⟨42, _⟩ => ⟨S1, .i32⟩
  | .hbm, ⟨43, _⟩ => ⟨S_, .i32⟩
  | .hbm, ⟨44, _⟩ => ⟨S500000x1, .i32⟩
  | .hbm, ⟨45, _⟩ => ⟨S500000x1, .i1⟩
  | .hbm, ⟨46, _⟩ => ⟨S1x1, .i32⟩
  | .hbm, ⟨47, _⟩ => ⟨S500000x1, .i32⟩
  | .hbm, ⟨48, _⟩ => ⟨S500000x1, .i1⟩
  | .hbm, ⟨49, _⟩ => ⟨S500000x1, .i1⟩
  | .hbm, ⟨50, _⟩ => ⟨S_, .i1⟩
  | .hbm, ⟨51, _⟩ => ⟨S500000, .i1⟩
  | .hbm, ⟨52, _⟩ => ⟨S500000x256, .f32⟩
  | .hbm, ⟨53, _⟩ => ⟨S500000x256, .i1⟩
  | .hbm, ⟨54, _⟩ => ⟨S_, .f32⟩
  | .hbm, ⟨55, _⟩ => ⟨S500000x256, .f32⟩
  | .hbm, ⟨56, _⟩ => ⟨S500000x256, .f32⟩
  | .hbm, ⟨57, _⟩ => ⟨S256x256, .f32⟩
  | .hbm, ⟨58, _⟩ => ⟨S256x256, .f32⟩
  | .hbm, ⟨59, _⟩ => ⟨S256x256, .f32⟩
  | .hbm, ⟨60, _⟩ => ⟨S256x256, .f32⟩
  | .hbm, ⟨61, _⟩ => ⟨S256x1, .f32⟩
  | .hbm, ⟨62, _⟩ => ⟨S1x256, .f32⟩
  | .hbm, ⟨63, _⟩ => ⟨S1x1, .f32⟩
  | .hbm, ⟨64, _⟩ => ⟨S500000x1, .f32⟩
  | .hbm, ⟨65, _⟩ => ⟨S500000, .f32⟩
  | .local _ .vmem, ⟨0, _⟩ => ⟨S5000x256, .f32⟩
  | .local _ .vmem, ⟨1, _⟩ => ⟨S5000x256, .f32⟩
  | .local _ .vmem, ⟨2, _⟩ => ⟨S5000x256, .f32⟩
  | .local _ .vmem, ⟨3, _⟩ => ⟨S5000x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S256x1, .f32⟩
  | .local _ .vmem, ⟨8, _⟩ => ⟨S1x1, .f32⟩
  | .local _ .vmem, ⟨9, _⟩ => ⟨S5000x1, .f32⟩
  | .local _ .vmem, ⟨10, _⟩ => ⟨S5000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v4 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x256_0 : S500000.BroadcastsInDim S500000x256 (![0] : Fin 1 → Fin S500000x256.rank)
  bcast_S_S500000x256 : S_.BroadcastsInDim S500000x256 (![] : Fin 0 → Fin S500000x256.rank)
  slices_S256x512_S256x256_0_0 : S256x512.Slices ![0, 0] S256x256
  transposes_S256x256_S256x256_1_0 : S256x256.Transposes [1, 0] S256x256
  slices_S256x512_S256x256_0_256 : S256x512.Slices ![0, 256] S256x256
  transposes_S1x256_S256x1_1_0 : S1x256.Transposes [1, 0] S256x1
  shapeCasts_S256_S1x256 : S256.ShapeCasts S1x256
  shapeCasts_S1_S1x1 : S1.ShapeCasts S1x1
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S500000x1_S500000 : S500000x1.ShapeCasts S500000
  gather_S100000x256_S500000x1_S500000x256_1_0_n_n_0_1_1256_wf : GatherDims.WF S100000x256 S500000x1 S500000x256 [1] [0] [] [0] [] 1 ![1, 256]
  dot_S5000x256_S256x256_S5000x256_1_0_0_1_n_n_wf : DotDims.WF S5000x256 S256x256 S5000x256 [1] [0] [0] [1] [] []
  dot_S5000x256_S256x1_S5000x1_1_0_0_1_n_n_wf : DotDims.WF S5000x256 S256x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S500000x256.size a
  hwx0_0 : ∀ i : grid0.Coords, EltTy.bits .f32 = 32 ∨ (Rect.block (s := S500000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x256.size a ≤ S500000x256.size a
  hwx0_1 : ∀ i : grid0.Coords, EltTy.bits .f32 = 32 ∨ (Rect.block (s := S500000x256) S5000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S256x1.size a
  hwx0_5 : ∀ i : grid0.Coords, EltTy.bits .f32 = 32 ∨ (Rect.block (s := S256x1) S256x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x1.size a ≤ S500000x1.size a
  hwx0_7 : ∀ i : grid0.Coords, EltTy.bits .f32 = 32 ∨ (Rect.block (s := S500000x1) S5000x1.size (cc0_transform_7 i) (hinb0_7 i)).WholeWords (EltTy.packing .f32)

variable [Facts₀]

def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x1_S5000x1_1_0_0_1_n_n : DotDims S5000x256 S256x1 S5000x1 where
  lhsContracting := [1]
  rhsContracting := [0]
  lhsNonContracting := [0]
  rhsNonContracting := [1]
  lhsBatch := []
  rhsBatch := []
  wf := dot_S5000x256_S256x1_S5000x1_1_0_0_1_n_n_wf

abbrev win0_0 : Pipeline.Window sig grid0 :=
  Pipeline.Window.ofSpec (Memref.whole main_v4) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S5000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S256x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S5000x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x256 : Shape := ⟨2, ![100000, 256]⟩
abbrev S2x500000 : Shape := ⟨2, ![2, 500000]⟩
abbrev S256x512 : Shape := ⟨2, ![256, 512]⟩
abbrev S256 : Shape := ⟨1, ![256]⟩
abbrev S1x256 : Shape := ⟨2, ![1, 256]⟩
abbrev S1 : Shape := ⟨1, ![1]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x256 : Shape := ⟨2, ![500000, 256]⟩
abbrev S500000x512 : Shape := ⟨2, ![500000, 512]⟩
abbrev S1x1 : Shape := ⟨2, ![1, 1]⟩

abbrev nBuf : Space → Nat
  | .hbm => 50
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S100000x256, .f32⟩
  | .hbm, ⟨2, _⟩ => ⟨S2x500000, .i32⟩
  | .hbm, ⟨3, _⟩ => ⟨S256x512, .f32⟩
  | .hbm, ⟨4, _⟩ => ⟨S256, .f32⟩
  | .hbm, ⟨5, _⟩ => ⟨S1x256, .f32⟩
  | .hbm, ⟨6, _⟩ => ⟨S1, .f32⟩
  | .hbm, ⟨7, _⟩ => ⟨S1x500000, .i32⟩
  | .hbm, ⟨8, _⟩ => ⟨S500000, .i32⟩
  | .hbm, ⟨9, _⟩ => ⟨S1x500000, .i32⟩
  | .hbm, ⟨10, _⟩ => ⟨S500000, .i32⟩
  | .hbm, ⟨11, _⟩ => ⟨S_, .i32⟩
  | .hbm, ⟨12, _⟩ => ⟨S500000, .i32⟩
  | .hbm, ⟨13, _⟩ => ⟨S500000, .i1⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S500000, .i32⟩
  | .hbm, ⟨18, _⟩ => ⟨S500000x1, .i32⟩
  | .hbm, ⟨19, _⟩ => ⟨S500000x256, .f32⟩
  | .hbm, ⟨20, _⟩ => ⟨S_, .i32⟩
  | .hbm, ⟨21, _⟩ => ⟨S500000, .i32⟩
  | .hbm, ⟨22, _⟩ => ⟨S500000, .i1⟩
  | .hbm, ⟨23, _⟩ => ⟨S_, .i32⟩
  | .hbm, ⟨24, _⟩ => ⟨S500000, .i32⟩
  | .hbm, ⟨25, _⟩ => ⟨S500000, .i32⟩
  | .hbm, ⟨26, _⟩ => ⟨S500000, .i32⟩
  | .hbm, ⟨27, _⟩ => ⟨S500000x1, .i32⟩
  | .hbm, ⟨28, _⟩ => ⟨S500000x256, .f32⟩
  | .hbm, ⟨29, _⟩ => ⟨S500000x512, .f32⟩
  | .hbm, ⟨30, _⟩ => ⟨S500000x256, .f32⟩
  | .hbm, ⟨31, _⟩ => ⟨S1x256, .f32⟩
  | .hbm, ⟨32, _⟩ => ⟨S500000x256, .f32⟩
  | .hbm, ⟨33, _⟩ => ⟨S500000x256, .f32⟩
  | .hbm, ⟨34, _⟩ => ⟨S_, .f32⟩
  | .hbm, ⟨35, _⟩ => ⟨S500000x256, .f32⟩
  | .hbm, ⟨36, _⟩ => ⟨S500000x256, .f32⟩
  | .hbm, ⟨37, _⟩ => ⟨S500000x1, .f32⟩
  | .hbm, ⟨38, _⟩ => ⟨S1x1, .f32⟩
  | .hbm, ⟨39, _⟩ => ⟨S500000x1, .f32⟩
  | .hbm, ⟨40, _⟩ => ⟨S500000x1, .f32⟩
  | .hbm, ⟨41, _⟩ => ⟨S500000x1, .f32⟩
  | .hbm, ⟨42, _⟩ => ⟨S500000x1, .f32⟩
  | .hbm, ⟨43, _⟩ => ⟨S_, .f32⟩
  | .hbm, ⟨44, _⟩ => ⟨S500000x1, .f32⟩
  | .hbm, ⟨45, _⟩ => ⟨S500000x1, .f32⟩
  | .hbm, ⟨46, _⟩ => ⟨S_, .f32⟩
  | .hbm, ⟨47, _⟩ => ⟨S500000x1, .f32⟩
  | .hbm, ⟨48, _⟩ => ⟨S500000x1, .f32⟩
  | .hbm, ⟨49, _⟩ => ⟨S500000, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x256_S500000x256_S500000x512_d1 : Shape.Concatenates [S500000x256, S500000x256] S500000x512 1
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S500000x1 : S_.BroadcastsInDim S500000x1 (![] : Fin 0 → Fin S500000x1.rank)
  shapeCasts_S500000x1_S500000 : S500000x1.ShapeCasts S500000
  gather_S100000x256_S500000x1_S500000x256_1_0_n_n_0_1_1256_wf : GatherDims.WF S100000x256 S500000x1 S500000x256 [1] [0] [] [0] [] 1 ![1, 256]
  dot_S500000x512_S256x512_S500000x256_1_1_0_0_n_n_wf : DotDims.WF S500000x512 S256x512 S500000x256 [1] [1] [0] [0] [] []
  dot_S500000x256_S1x256_S500000x1_1_1_0_0_n_n_wf : DotDims.WF S500000x256 S1x256 S500000x1 [1] [1] [0] [0] [] []

variable [Facts₀]

def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def dot_S500000x512_S256x512_S500000x256_1_1_0_0_n_n : DotDims S500000x512 S256x512 S500000x256 where
  lhsContracting := [1]
  rhsContracting := [1]
  lhsNonContracting := [0]
  rhsNonContracting := [0]
  lhsBatch := []
  rhsBatch := []
  wf := dot_S500000x512_S256x512_S500000x256_1_1_0_0_n_n_wf
def dot_S500000x256_S1x256_S500000x1_1_1_0_0_n_n : DotDims S500000x256 S1x256 S500000x1 where
  lhsContracting := [1]
  rhsContracting := [1]
  lhsNonContracting := [0]
  rhsNonContracting := [0]
  lhsBatch := []
  rhsBatch := []
  wf := dot_S500000x256_S1x256_S500000x1_1_1_0_0_n_n_wf

class Facts : Prop extends Facts₀ where

variable [Facts]
-- ==== Proof.IndexRange.lean ====
/-
  The edge-endpoint indices, read out of the precondition, and what the usual index normalisation makes of them.

  The precondition's last conjunct says every entry `i` of the index array satisfies `-100000 ≤ i < 100000` as a signed
  word: the entries that name a row of a 100000-row table, counted from the front or, when negative, from the back. Array
  indexing normalises such an index by adding the extent when it is negative (`i < 0 ? i + 100000 : i`); on that range the sum
  does not wrap, and the normalised word lies in `[0, 99999]`. So a test "is the normalised index inside the table",
  reduced by `and` over a unit axis, answers one everywhere.
-/
import proofs.«401217_j81071802679526_1_alg».proof.Proof.Gen.Pre_finite_inputs
import Idealize.ShloMosaic.Lib.ReduceAll
import Idealize.ShloMosaic.Lib.ValueIdx

noncomputable section

open Idealize.ShloMosaic Idealize.ShloMosaic.ValueIdx

namespace Cert.EdgeScore

/-- The scalar shape has one index. -/
instance subsingleton_scalar_idx : Subsingleton (⟨0, ![]⟩ : Shape).Idx := ⟨fun _ _ => funext fun d => d.elim0⟩

/-- Every entry of the index array lies in `[-100000, 100000)` as a signed word: the precondition's last conjunct, read
    back through its reduction by `and` over all entries. -/
theorem index_range {F : FTy → Type} [FloatOps F]
    (a0 a1 : FVec F Cert.Pre_finite_inputs.S100000x256 .f32) (a2 : IVec Cert.Pre_finite_inputs.S2x500000 32)
    (a3 : FVec F Cert.Pre_finite_inputs.S256x512 .f32) (a4 : FVec F Cert.Pre_finite_inputs.S256 .f32)
    (a5 : FVec F Cert.Pre_finite_inputs.S1x256 .f32) (a6 : FVec F Cert.Pre_finite_inputs.S1 .f32)
    (h : Cert.Pre_finite_inputs.fn (F := F) a0 a1 a2 a3 a4 a5 a6 = fun _ => 1#1) (i : Cert.Pre_finite_inputs.S2x500000.Idx) :
    (-100000 : ℤ) ≤ (a2 i).toInt ∧ (a2 i).toInt < 100000 := by
  have h0 := congrFun h ix0
  dsimp only [Cert.Pre_finite_inputs.fn, Cert.Pre_finite_inputs.fn_part1, Cert.Pre_finite_inputs.fn_part2] at h0
  have h1 := (IntOp.andi_eq_one.1 h0).2
  have h2 := Host.reduce_andi_all _ _ _ _ ix0 h1 i
  obtain ⟨hge, hlt⟩ := IntOp.andi_eq_one.1 h2
  have hge' := IntOp.cmpi_sge.1 hge
  have hlt' := IntOp.cmpi_slt.1 hlt
  exact ⟨hge', hlt'⟩

theorem toInt_zero32 : (0#32 : BitVec 32).toInt = 0 := by decide
theorem toInt_extent32 : (100000#32 : BitVec 32).toInt = 100000 := by decide
theorem toInt_last32 : (99999#32 : BitVec 32).toInt = 99999 := by decide

/-- A word of `[-100000, 100000)`, with 100000 added when it is negative (the sum does not wrap), lies in `[0, 99999]`. -/
theorem wrap_toInt (i : BitVec 32) (h0 : (-100000 : ℤ) ≤ i.toInt) (h1 : i.toInt < 100000) :
    0 ≤ (Scalar.select (IntOp.cmpi .slt i 0#32) (IntOp.addi i 100000#32) i).toInt
      ∧ (Scalar.select (IntOp.cmpi .slt i 0#32) (IntOp.addi i 100000#32) i).toInt ≤ 99999 := by
  by_cases hneg : i.toInt < 0
  · have hc : IntOp.cmpi .slt i 0#32 = 1#1 := IntOp.cmpi_slt.2 (by rw [toInt_zero32]; exact hneg)
    rw [hc, select_one]
    show 0 ≤ (i + 100000#32).toInt ∧ (i + 100000#32).toInt ≤ 99999
    rw [BitVec.toInt_add, toInt_extent32, Int.bmod_eq_of_le (by omega) (by omega)]
    omega
  · have hc : IntOp.cmpi .slt i 0#32 = 0#1 :=
      eq_zero_of_ne_one fun h => hneg (by have := IntOp.cmpi_slt.1 h; rwa [toInt_zero32] at this)
    rw [hc, select_zero]
    omega

/-- The normalised index passes the test "at least 0". -/
theorem wrap_ge (i : BitVec 32) (h0 : (-100000 : ℤ) ≤ i.toInt) (h1 : i.toInt < 100000) :
    IntOp.cmpi .sge (Scalar.select (IntOp.cmpi .slt i 0#32) (IntOp.addi i 100000#32) i) 0#32 = 1#1 :=
  IntOp.cmpi_sge.2 (by rw [toInt_zero32]; exact (wrap_toInt i h0 h1).1)

/-- The normalised index passes the test "at most 99999". -/
theorem wrap_le (i : BitVec 32) (h0 : (-100000 : ℤ) ≤ i.toInt) (h1 : i.toInt < 100000) :
    IntOp.cmpi .sle (Scalar.select (IntOp.cmpi .slt i 0#32) (IntOp.addi i 100000#32) i) 99999#32 = 1#1 :=
  IntOp.cmpi_sle.2 (by rw [toInt_last32]; exact (wrap_toInt i h0 h1).2)

/-- A left fold by `and` from 1 over words that are all 1 is 1. -/
theorem foldl_andi_of_all_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi (1#1) (1#1) = 1#1 from by decide]
    exact foldl_andi_of_all_one f l fun n hn => h n (List.mem_cons_of_mem _ hn)

/-- A reduction by `and`, started at 1, of an array of ones is 1 at every result index. -/
theorem reduce_andi_of_all_one {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_of_all_one x _ fun n _ => hx n

end Cert.EdgeScore

end
-- ==== Proof.EntryTake.lean ====
/-
  The two gathered operands of the kernel, as the region finds them.

  Before the region the program takes, for every edge, the source row of the first table and the destination row of
  the second. The take operation normalises each index the usual way (a negative one has the extent 100000 added),
  gathers the row the normalised index names, and replaces the row by a fill value wherever the normalised index is
  not in `[0, 99999]`.
  When every index of the array lies in `[-100000, 100000)` the normalised index always is in the table, the test is
  one everywhere, and the filled gather is the gather itself.
-/
import proofs.«401217_j81071802679526_1_alg».proof.Proof.Gen.KernelIdeal.Frame
import proofs.«401217_j81071802679526_1_alg».proof.Proof.IndexRange
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx

variable {F : FTy → Type} [FloatOps F]

/-- The source endpoints: row 0 of the index array, as a vector over the edges. -/
def srcIdx (idx : IVec S2x500000 32) : IVec S500000 32 :=
  shapeCast S500000 (extractStridedSlice S1x500000 ![0, 0] idx slices_S2x500000_S1x500000_0_0) shapeCasts_S1x500000_S500000

/-- The destination endpoints: row 1 of the index array. -/
def dstIdx (idx : IVec S2x500000 32) : IVec S500000 32 :=
  shapeCast S500000 (extractStridedSlice S1x500000 ![1, 0] idx slices_S2x500000_S1x500000_1_0) shapeCasts_S1x500000_S500000

/-- The normalised indices (a negative one has 100000 added), as the column of start indices a gather takes. -/
def startCol (row : IVec S500000 32) : IVec S500000x1 32 :=
  broadcastInDim S500000x1 ![0] bcast_S500000_S500000x1_0
    (select (cmpi .slt row (broadcastInDim S500000 ![] bcast_S_S500000 (constantI S_ 32 0#32)))
      (addi row (broadcastInDim S500000 ![] bcast_S_S500000 (constantI S_ 32 100000#32))) row)

/-- The test "the normalised index is in `[0, 99999]`", per edge. -/
def inTable (col : IVec S500000x1 32) : IVec S500000 1 :=
  Host.reduce IntOp.andi
    (andi (cmpi .sge col (broadcastInDim S500000x1 ![] bcast_S_S500000x1 (constantI S_ 32 0#32)))
      (cmpi .sle col (broadcastInDim S500000x1 ![0, 1] bcast_S1x1_S500000x1_0_1
        (broadcastInDim S1x1 ![1] bcast_S1_S1x1_1 (constantI S1 32 99999#32)))))
    (constantI S_ 1 1#1) reducesTo_S500000x1_S500000_d1 h_S_

/-- The rows of a table that the normalised indices name. -/
def takeRows (tbl : FVec F S100000x256 .f32) (row : IVec S500000 32) : FVec F S500000x256 .f32 :=
  Host.gather gather_S100000x256_S500000x1_S500000x256_1_0_n_n_0_1_1256 tbl (startCol row)

/-- The take operation: those rows, a fill value where the normalised index is outside the table. -/
def takeFill (tbl : FVec F S100000x256 .f32) (row : IVec S500000 32) : FVec F S500000x256 .f32 :=
  select (broadcastInDim S500000x256 ![0] bcast_S500000_S500000x256_0 (inTable (startCol row))) (takeRows tbl row)
    (broadcastInDim S500000x256 ![] bcast_S_S500000x256 (constant S_ .f32 0x7FC00000#32))

/-- With every index in `[-100000, 100000)` the fill never applies. -/
theorem takeFill_eq (tbl : FVec F S100000x256 .f32) (row : IVec S500000 32)
    (hrow : ∀ e, (-100000 : ℤ) ≤ (row e).toInt ∧ (row e).toInt < 100000) : takeFill tbl row = takeRows tbl row := by
  funext i
  unfold takeFill
  rw [select_apply]
  have hone : (broadcastInDim S500000x256 ![0] bcast_S500000_S500000x256_0 (inTable (startCol row))) i = 1#1 := by
    show inTable (startCol row) _ = 1#1
    unfold inTable
    refine Cert.EdgeScore.reduce_andi_of_all_one _ _ _ _ (fun k => ?_) (fun _ => rfl) _
    refine IntOp.andi_eq_one.2 ⟨?_, ?_⟩
    · exact Cert.EdgeScore.wrap_ge _ (hrow _).1 (hrow _).2
    · exact Cert.EdgeScore.wrap_le _ (hrow _).1 (hrow _).2
  rw [hone, select_one]

/-- Every entry of a row of the index array is an entry of the array. -/
theorem srcIdx_range (idx : IVec S2x500000 32) (h : ∀ i, (-100000 : ℤ) ≤ (idx i).toInt ∧ (idx i).toInt < 100000) (e : S500000.Idx) :
    (-100000 : ℤ) ≤ (srcIdx idx e).toInt ∧ (srcIdx idx e).toInt < 100000 := h _
theorem dstIdx_range (idx : IVec S2x500000 32) (h : ∀ i, (-100000 : ℤ) ≤ (idx i).toInt ∧ (idx i).toInt < 100000) (e : S500000.Idx) :
    (-100000 : ℤ) ≤ (dstIdx idx e).toInt ∧ (dstIdx idx e).toInt < 100000 := h _

end Cert.KernelIdeal.Hand

end
-- ==== Proof.EntrySrc.lean ====
/-
  The first gathered operand as the region finds it: the host operations before the region, composed, are the take
  operation of the first table at the source endpoints (row 0 of the index array).
-/
import proofs.«401217_j81071802679526_1_alg».proof.Proof.Gen.KernelIdeal.Frame
import proofs.«401217_j81071802679526_1_alg».proof.Proof.EntryTake
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

set_option maxHeartbeats 4000000 in
/-- Window 0's array when the region starts: the take of the first table at the source endpoints. -/
theorem entry_src (c : Dev nD) : (V m c main_v4 : S500000x256.Idx → Elt F .f32)
    = takeFill (m ((c : Thread nD τ).loc main_arg0)) (srcIdx (m ((c : Thread nD τ).loc main_arg2))) := by
  dsimp only [V, V0]
  simp only [hostOps0, hostOps0_1, hostOps0_2, hostOps0_3, List.flatten_cons, List.flatten_nil, List.append_nil, List.cons_append, List.nil_append]
  after_results
  unfold takeFill takeRows inTable startCol srcIdx
  simp only [TRef.toBuf, TRef.ofBuf, cast_eq]
  rfl

end Cert.KernelIdeal.Hand

end
-- ==== Proof.EntryDst.lean ====
/-
  The second gathered operand as the region finds it: the host operations before the region, composed, are the take
  operation of the second table at the destination endpoints (row 1 of the index array).
-/
import proofs.«401217_j81071802679526_1_alg».proof.Proof.Gen.KernelIdeal.Frame
import proofs.«401217_j81071802679526_1_alg».proof.Proof.EntryTake
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

set_option maxHeartbeats 8000000 in
/-- Window 1's array when the region starts: the take of the second table at the destination endpoints. -/
theorem entry_dst (c : Dev nD) : (V m c main_v5 : S500000x256.Idx → Elt F .f32)
    = takeFill (m ((c : Thread nD τ).loc main_arg1)) (dstIdx (m ((c : Thread nD τ).loc main_arg2))) := by
  dsimp only [V, V0]
  simp only [hostOps0, hostOps0_1, hostOps0_2, hostOps0_3, List.flatten_cons, List.flatten_nil, List.append_nil, List.cons_append, List.nil_append]
  after_results
  unfold takeFill takeRows inTable startCol dstIdx
  simp only [TRef.toBuf, TRef.ofBuf, cast_eq]
  rfl

end Cert.KernelIdeal.Hand

end
-- ==== Proof.Spec.lean ====
/-
  The mathematics of the edge scorer, with no program in sight.

  An edge `e` has a source row `zs e` and a destination row `zd e`, each of 256 extended reals. Its hidden unit `o` is
  the first layer's row `o` (512 weights) against the two rows laid end to end, plus a bias; written with the row cut in
  its two halves that is one sum over the first 256 weights against `zs e` plus one over the last 256 against `zd e`.
  The edge's score is the logistic function of the second layer (one row of 256 weights) against the rectified hidden
  units, plus a bias.

  The only law needed between the two ways of writing the hidden unit is that a sum over 512 positions is the sum over
  the first 256 plus the sum over the last 256: it holds in every additive commutative monoid, so on the extended
  reals it asks nothing of the summands (no finiteness).
-/
import Idealize.ShloMosaic.PureOps.Ideal
import Idealize.ShloMosaic.Lib.ValueIdx

noncomputable section

open Idealize.ShloMosaic Idealize.ShloMosaic.ValueIdx

namespace Cert.EdgeScore

/-- Position `j` of the first half of a 512-long row. -/
abbrev lo (j : Fin 256) : Fin 512 := ⟨j.val, by have := j.isLt; omega⟩
/-- Position `j` of the second half of a 512-long row. -/
abbrev hi (j : Fin 256) : Fin 512 := ⟨256 + j.val, by have := j.isLt; omega⟩

/-- A sum over 512 positions is the sum over its first half plus the sum over its second half. -/
theorem sum_halves {M : Type*} [AddCommMonoid M] (f : Fin 512 → M) :
    ∑ k : Fin 512, f k = ∑ j : Fin 256, f (lo j) + ∑ j : Fin 256, f (hi j) := by
  have h := Fin.sum_univ_add (M := M) (a := 256) (b := 256) f
  refine h.trans ?_
  congr 1

/-- Hidden unit `o` of edge `e` before rectification: the first layer's row `o`, its first half against the source row
    and its second half against the destination row, plus the bias. -/
def hidden (zs zd : (⟨2, ![500000, 256]⟩ : Shape).Idx → EReal) (w1 : (⟨2, ![256, 512]⟩ : Shape).Idx → EReal)
    (b1 : (⟨1, ![256]⟩ : Shape).Idx → EReal) (e : Fin 500000) (o : Fin 256) : EReal :=
  (∑ j : Fin 256, zs (ix2 e j) * w1 (ix2 o (lo j)) + ∑ j : Fin 256, zd (ix2 e j) * w1 (ix2 o (hi j))) + b1 (ix1 o)

/-- The score of every edge: the logistic function of the second layer against the rectified hidden units, plus its bias. -/
def scores (zs zd : (⟨2, ![500000, 256]⟩ : Shape).Idx → EReal) (w1 : (⟨2, ![256, 512]⟩ : Shape).Idx → EReal)
    (b1 : (⟨1, ![256]⟩ : Shape).Idx → EReal) (w2 : (⟨2, ![1, 256]⟩ : Shape).Idx → EReal)
    (b2 : (⟨1, ![1]⟩ : Shape).Idx → EReal) : (⟨1, ![500000]⟩ : Shape).Idx → EReal := fun i =>
  Ideal.logistic ((∑ o : Fin 256, max (hidden zs zd w1 b1 (i 0) o) 0 * w2 (ix2 (0 : Fin 1) o)) + b2 (ix1 (0 : Fin 1)))

end Cert.EdgeScore

end
-- ==== Proof.EntryWeights.lean ====
/-
  The five small operands of the region, as the region finds them, read at coordinates.

  Before the region the host cuts the first layer's `[256, 512]` weights into their two `[256, 256]` halves and transposes
  each, transposes the second layer's `[1, 256]` weights to `[256, 1]`, and reshapes the two biases to `[1, 256]` and
  `[1, 1]`. Each array is first stated whole, as that term of the launched operand; then a transpose at `(j, o)` is its
  operand at `(o, j)`, a cut along the columns from `c` at `(o, j)` is its operand at `(o, c + j)`, and a reshape
  that only adds a leading unit axis keeps the other coordinate. So the first half transposed at `(j, o)` is the
  weight `(o, j)`, the second half transposed at `(j, o)` is the weight `(o, 256 + j)`, and the rest are the launched
  operands at the same position.
-/
import proofs.«401217_j81071802679526_1_alg».proof.Proof.Gen.KernelIdeal.Frame
import proofs.«401217_j81071802679526_1_alg».proof.Proof.Spec
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo Idealize.ShloMosaic.ValueIdx

variable {F : FTy → Type} [FloatOps F]
variable (m : (ℓ : Loc nD τ sig) → Buf (Elt F) ℓ)

/-! ### Each array whole, as a term of the launched operand -/

set_option maxHeartbeats 4000000 in
/-- The first half of the first layer's weights, transposed. -/
theorem entry_w1a (c : Dev nD) :
    (V m c main_v7 : S256x256.Idx → Elt F .f32)
      = transpose S256x256 [1, 0]
          (extractStridedSlice S256x256 ![0, 0] (m ((c : Thread nD τ).loc main_arg3) : S256x512.Idx → Elt F .f32)
            slices_S256x512_S256x256_0_0)
          transposes_S256x256_S256x256_1_0 := by
  dsimp only [V, V0]
  simp only [hostOps0, hostOps0_1, hostOps0_2, hostOps0_3, List.flatten_cons, List.flatten_nil, List.append_nil, List.cons_append,
    List.nil_append]
  after_results

set_option maxHeartbeats 4000000 in
/-- The second half of the first layer's weights, transposed. -/
theorem entry_w1b (c : Dev nD) :
    (V m c main_v9 : S256x256.Idx → Elt F .f32)
      = transpose S256x256 [1, 0]
          (extractStridedSlice S256x256 ![0, 256] (m ((c : Thread nD τ).loc main_arg3) : S256x512.Idx → Elt F .f32)
            slices_S256x512_S256x256_0_256)
          transposes_S256x256_S256x256_1_0 := by
  dsimp only [V, V0]
  simp only [hostOps0, hostOps0_1, hostOps0_2, hostOps0_3, List.flatten_cons, List.flatten_nil, List.append_nil, List.cons_append,
    List.nil_append]
  after_results

set_option maxHeartbeats 4000000 in
/-- The second layer's weights, transposed. -/
theorem entry_w2 (c : Dev nD) :
    (V m c main_v10 : S256x1.Idx → Elt F .f32)
      = transpose S256x1 [1, 0] (m ((c : Thread nD τ).loc main_arg5) : S1x256.Idx → Elt F .f32)
          transposes_S1x256_S256x1_1_0 := by
  dsimp only [V, V0]
  simp only [hostOps0, hostOps0_1, hostOps0_2, hostOps0_3, List.flatten_cons, List.flatten_nil, List.append_nil, List.cons_append,
    List.nil_append]
  after_results

set_option maxHeartbeats 4000000 in
/-- The first bias with a leading unit axis. -/
theorem entry_b1 (c : Dev nD) :
    (V m c main_v11 : S1x256.Idx → Elt F .f32)
      = shapeCast S1x256 (m ((c : Thread nD τ).loc main_arg4) : S256.Idx → Elt F .f32) shapeCasts_S256_S1x256 := by
  dsimp only [V, V0]
  simp only [hostOps0, hostOps0_1, hostOps0_2, hostOps0_3, List.flatten_cons, List.flatten_nil, List.append_nil, List.cons_append,
    List.nil_append]
  after_results
  rfl

set_option maxHeartbeats 4000000 in
/-- The second bias with a leading unit axis. -/
theorem entry_b2 (c : Dev nD) :
    (V m c main_v12 : S1x1.Idx → Elt F .f32)
      = shapeCast S1x1 (m ((c : Thread nD τ).loc main_arg6) : S1.Idx → Elt F .f32) shapeCasts_S1_S1x1 := by
  dsimp only [V, V0]
  simp only [hostOps0, hostOps0_1, hostOps0_2, hostOps0_3, List.flatten_cons, List.flatten_nil, List.append_nil, List.cons_append,
    List.nil_append]
  after_results
  rfl

/-! ### At coordinates -/

theorem w1a_at (c : Dev nD) (j o : Fin 256) : (V m c main_v7 : S256x256.Idx → Elt F .f32) (ix2 j o) = (m ((c : Thread nD τ).loc main_arg3) : S256x512.Idx → Elt F .f32) (ix2 o (Cert.EdgeScore.lo j)) := by
  refine (congrFun (entry_w1a m c) (ix2 j o)).trans ?_
  refine (transpose_ix2_apply _ transposes_S256x256_S256x256_1_0 j o).trans ?_
  exact slice2_axis1_apply 0 _ slices_S256x512_S256x256_0_0 o j (Cert.EdgeScore.lo j) (Nat.zero_add _).symm

theorem w1b_at (c : Dev nD) (j o : Fin 256) : (V m c main_v9 : S256x256.Idx → Elt F .f32) (ix2 j o) = (m ((c : Thread nD τ).loc main_arg3) : S256x512.Idx → Elt F .f32) (ix2 o (Cert.EdgeScore.hi j)) := by
  refine (congrFun (entry_w1b m c) (ix2 j o)).trans ?_
  refine (transpose_ix2_apply _ transposes_S256x256_S256x256_1_0 j o).trans ?_
  exact slice2_axis1_apply 256 _ slices_S256x512_S256x256_0_256 o j (Cert.EdgeScore.hi j) rfl

theorem b1_at (c : Dev nD) (o : Fin 256) : (V m c main_v11 : S1x256.Idx → Elt F .f32) (ix2 (0 : Fin 1) o) = (m ((c : Thread nD τ).loc main_arg4) : S256.Idx → Elt F .f32) (ix1 o) := by
  refine (congrFun (entry_b1 m c) (ix2 (0 : Fin 1) o)).trans ?_
  exact shapeCast_a_1a_apply _ shapeCasts_S256_S1x256 (0 : Fin 1) o

theorem w2_at (c : Dev nD) (o : Fin 256) : (V m c main_v10 : S256x1.Idx → Elt F .f32) (ix2 o (0 : Fin 1)) = (m ((c : Thread nD τ).loc main_arg5) : S1x256.Idx → Elt F .f32) (ix2 (0 : Fin 1) o) := by
  refine (congrFun (entry_w2 m c) (ix2 o (0 : Fin 1))).trans ?_
  exact transpose_ix2_apply _ transposes_S1x256_S256x1_1_0 o (0 : Fin 1)

theorem b2_at (c : Dev nD) : (V m c main_v12 : S1x1.Idx → Elt F .f32) (ix2 (0 : Fin 1) (0 : Fin 1)) = (m ((c : Thread nD τ).loc main_arg6) : S1.Idx → Elt F .f32) (ix1 (0 : Fin 1)) := by
  refine (congrFun (entry_b2 m c) (ix2 (0 : Fin 1) (0 : Fin 1))).trans ?_
  exact shapeCast_a_1a_apply _ shapeCasts_S1_S1x1 (0 : Fin 1) (0 : Fin 1)

end Cert.KernelIdeal.Hand

end
-- ==== Proof.Payload.lean ====
import proofs.«401217_j81071802679526_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-!
The kernel body's one stored value read at one index, at the ideal values.

The body computes, for a block of 5000 rows, a two-layer perceptron: the hidden layer is the
sum of two matrix products (each into a zero accumulator) plus a bias row, clamped below at
zero; the output layer is a matrix product with a single column plus a one-cell bias, passed
through the logistic function. At the ideal values a change of float format and a shape cast
to the same shape are the identity, so the value at row r is

  logistic ( ∑ o, max ( ∑ j, x0 r j * x2 j o + ∑ j, x1 r j * x3 j o + x4 0 o ) 0 * x5 o 0 + x6 0 0 )

with all sums over the 256 hidden or input features.
-/

noncomputable section

namespace Cert.KernelIdeal.Hand

open Cert.KernelIdeal Cert.KernelIdeal.Gen Idealize.ShloMosaic Idealize.ShloMosaic.ValueIdx

/-! ## The operand indices of the two contractions

Both contractions are plain matrix products: the left operand's axis 1 is contracted against
the right operand's axis 0; the result's axes are the left operand's axis 0 then the right
operand's axis 1. -/

theorem lhsA_0 (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem lhsA_1 (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q
theorem rhsA_0 (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q
theorem rhsA_1 (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

theorem lhsB_0 (i : S5000x1.Idx) (q : dot_S5000x256_S256x1_S5000x1_1_0_0_1_n_n.contr.Idx) :
    (dot_S5000x256_S256x1_S5000x1_1_0_0_1_n_n.lhsIdx i q 0).val = (i 0).val := by
  unfold DotDims.lhsIdx
  rw [dif_neg (show ¬(0 : Fin S5000x256.rank) ∈ dot_S5000x256_S256x1_S5000x1_1_0_0_1_n_n.lhsBatch by decide), dif_pos (show (0 : Fin S5000x256.rank) ∈ dot_S5000x256_S256x1_S5000x1_1_0_0_1_n_n.lhsNonContracting by decide)]
  rfl
theorem lhsB_1 (i : S5000x1.Idx) (q : dot_S5000x256_S256x1_S5000x1_1_0_0_1_n_n.contr.Idx) :
    (dot_S5000x256_S256x1_S5000x1_1_0_0_1_n_n.lhsIdx i q 1).val = (q ⟨0, by decide⟩).val :=
  dot_S5000x256_S256x1_S5000x1_1_0_0_1_n_n.lhsIdx_val_of_single rfl i q
theorem rhsB_0 (i : S5000x1.Idx) (q : dot_S5000x256_S256x1_S5000x1_1_0_0_1_n_n.contr.Idx) :
    (dot_S5000x256_S256x1_S5000x1_1_0_0_1_n_n.rhsIdx i q 0).val = (q ⟨0, by decide⟩).val :=
  dot_S5000x256_S256x1_S5000x1_1_0_0_1_n_n.rhsIdx_val_of_single rfl i q
theorem rhsB_1 (i : S5000x1.Idx) (q : dot_S5000x256_S256x1_S5000x1_1_0_0_1_n_n.contr.Idx) :
    (dot_S5000x256_S256x1_S5000x1_1_0_0_1_n_n.rhsIdx i q 1).val = (i 1).val := by
  unfold DotDims.rhsIdx
  rw [dif_neg (show ¬(1 : Fin S256x1.rank) ∈ dot_S5000x256_S256x1_S5000x1_1_0_0_1_n_n.rhsBatch by decide), dif_pos (show (1 : Fin S256x1.rank) ∈ dot_S5000x256_S256x1_S5000x1_1_0_0_1_n_n.rhsNonContracting by decide)]
  rfl

/-! ## Each matrix product into the zero accumulator, at an index -/

/-- A [5000,256] by [256,256] product into zero, at (r, o): the row of the left operand against
    the column of the right operand. -/
theorem mmA_apply {φ₁ φ₂ : FTy} (a : FVec Ideal S5000x256 φ₁) (b : FVec Ideal S256x256 φ₂) (r : Fin 5000) (o : Fin 256) :
    matmul dot_S5000x256_S256x256_S5000x256_1_0_0_1_n_n none a b (constant (F := Ideal) S5000x256 .f32 0x00000000#32) (ix2 r o)
      = ∑ j : Fin 256, a (ix2 r j) * b (ix2 j o) := by
  simp only [matmul]
  rw [Ideal.matmul_constant_zero_apply, ← Equiv.sum_comp (ValueIdx.contrEquiv1 dot_S5000x256_S256x256_S5000x256_1_0_0_1_n_n 256 rfl rfl).symm]
  refine Finset.sum_congr rfl fun k _ => ?_
  have hk := ValueIdx.contrEquiv1_symm_val dot_S5000x256_S256x256_S5000x256_1_0_0_1_n_n 256 rfl rfl k
  have el : dot_S5000x256_S256x256_S5000x256_1_0_0_1_n_n.lhsIdx (ix2 r o) ((ValueIdx.contrEquiv1 dot_S5000x256_S256x256_S5000x256_1_0_0_1_n_n 256 rfl rfl).symm k) = ix2 r k := funext fun a => Fin.ext (by
    match a with
    | ⟨0, _⟩ => exact lhsA_0 _ _
    | ⟨1, _⟩ => exact (lhsA_1 _ _).trans hk)
  have er : dot_S5000x256_S256x256_S5000x256_1_0_0_1_n_n.rhsIdx (ix2 r o) ((ValueIdx.contrEquiv1 dot_S5000x256_S256x256_S5000x256_1_0_0_1_n_n 256 rfl rfl).symm k) = ix2 k o := funext fun a => Fin.ext (by
    match a with
    | ⟨0, _⟩ => exact (rhsA_0 _ _).trans hk
    | ⟨1, _⟩ => exact rhsA_1 _ _)
  rw [el, er]

/-- A [5000,256] by [256,1] product into zero, at (r, u): the row of the left operand against
    the right operand's one column. -/
theorem mmB_apply {φ₁ φ₂ : FTy} (a : FVec Ideal S5000x256 φ₁) (b : FVec Ideal S256x1 φ₂) (r : Fin 5000) (u : Fin 1) :
    matmul dot_S5000x256_S256x1_S5000x1_1_0_0_1_n_n none a b (constant (F := Ideal) S5000x1 .f32 0x00000000#32) (ix2 r u)
      = ∑ o : Fin 256, a (ix2 r o) * b (ix2 o u) := by
  simp only [matmul]
  rw [Ideal.matmul_constant_zero_apply, ← Equiv.sum_comp (ValueIdx.contrEquiv1 dot_S5000x256_S256x1_S5000x1_1_0_0_1_n_n 256 rfl rfl).symm]
  refine Finset.sum_congr rfl fun k _ => ?_
  have hk := ValueIdx.contrEquiv1_symm_val dot_S5000x256_S256x1_S5000x1_1_0_0_1_n_n 256 rfl rfl k
  have el : dot_S5000x256_S256x1_S5000x1_1_0_0_1_n_n.lhsIdx (ix2 r u) ((ValueIdx.contrEquiv1 dot_S5000x256_S256x1_S5000x1_1_0_0_1_n_n 256 rfl rfl).symm k) = ix2 r k := funext fun a => Fin.ext (by
    match a with
    | ⟨0, _⟩ => exact lhsB_0 _ _
    | ⟨1, _⟩ => exact (lhsB_1 _ _).trans hk)
  have er : dot_S5000x256_S256x1_S5000x1_1_0_0_1_n_n.rhsIdx (ix2 r u) ((ValueIdx.contrEquiv1 dot_S5000x256_S256x1_S5000x1_1_0_0_1_n_n 256 rfl rfl).symm k) = ix2 k u := funext fun a => Fin.ext (by
    match a with
    | ⟨0, _⟩ => exact (rhsB_0 _ _).trans hk
    | ⟨1, _⟩ => exact rhsB_1 _ _)
  rw [el, er]

/-! ## The stored value at an index -/

/-- The logistic function of a vector is taken entry by entry. -/
theorem logistic_apply {s : Shape} {φ : FTy} (a : FVec Ideal s φ) (i : s.Idx) :
    logistic a i = Ideal.logistic (a i) := rfl

theorem payload_apply (x0 x1 : Vec Ideal S5000x256 .f32) (x2 x3 : Vec Ideal S256x256 .f32) (x4 : Vec Ideal S1x256 .f32)
    (x5 : Vec Ideal S256x1 .f32) (x6 : Vec Ideal S1x1 .f32) (r : Fin 5000) (u : Fin 1) :
    k0_pay1 (F := Ideal) x0 x1 x2 x3 x4 x5 x6 (ix2 r u)
      = Ideal.logistic ((∑ o : Fin 256, max ((∑ j : Fin 256, x0 (ix2 r j) * x2 (ix2 j o) + ∑ j : Fin 256, x1 (ix2 r j) * x3 (ix2 j o)) + x4 (ix2 (0 : Fin 1) o)) 0 * x5 (ix2 o (0 : Fin 1))) + x6 (ix2 (0 : Fin 1) (0 : Fin 1))) := by
  obtain rfl : u = 0 := Subsingleton.elim _ _
  unfold k0_pay1
  simp only [shapeCast_self]
  rw [logistic_apply, addf_apply, mmB_apply, broadcastTo_1b_ab_apply]
  refine congrArg Ideal.logistic (congrArg (· + _) (Finset.sum_congr rfl fun o _ => ?_))
  rw [truncf_apply, truncf_apply, maximumf_apply, addf_apply, addf_apply, mmA_apply, mmA_apply,
    broadcastTo_1b_ab_apply, broadcast_apply]
  simp only [truncf_apply]
  show max _ (Ideal.ofBits .f32 0x00000000#32) * _ = _
  rw [Ideal.ofBits_zero_f32]

end Cert.KernelIdeal.Hand

end
-- ==== Proof.KernelValue.lean ====
/-
  What the kernel leaves in its result, read off its frame run.

  The region's grid has 100 points; point `t` stages rows `5000 t … 5000 t + 4999` of the two gathered arrays, the
  whole of the five small operands (the two halves of the first layer's weights transposed, its bias as a row, the
  second layer's weights as a column, its bias as a cell), runs the body on them and writes its `[5000, 1]` result back
  as rows `5000 t … 5000 t + 4999` of the `[500000, 1]` output. The body's value at row `r` of a block is the
  specification's score of edge `5000 t + r` (the payload read at an index, each operand's entry traced back to the
  arrays the region found); the 100 blocks tile the output, so the output ends as the column of all scores, and the
  reshape after the region lays that column out as the vector of scores.
-/
import proofs.«401217_j81071802679526_1_alg».proof.Proof.Gen.KernelIdeal.Frame
import proofs.«401217_j81071802679526_1_alg».proof.Proof.EntryTake
import proofs.«401217_j81071802679526_1_alg».proof.Proof.EntrySrc
import proofs.«401217_j81071802679526_1_alg».proof.Proof.EntryDst
import proofs.«401217_j81071802679526_1_alg».proof.Proof.EntryWeights
import proofs.«401217_j81071802679526_1_alg».proof.Proof.Payload
import proofs.«401217_j81071802679526_1_alg».proof.Proof.Spec
import Idealize.ShloMosaic.Lib.Pipeline.Value
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-- The body's stored value at row `r` of a block is the score of edge `e`, once every operand entry it reads is an
    entry of the edge's two rows and of the weights: the payload's sums are the specification's, term by term. -/
theorem block_score (x0 x1 : Vec Ideal S5000x256 .f32) (x2 x3 : Vec Ideal S256x256 .f32) (x4 : Vec Ideal S1x256 .f32)
    (x5 : Vec Ideal S256x1 .f32) (x6 : Vec Ideal S1x1 .f32)
    (zs zd : S500000x256.Idx → EReal) (w1 : S256x512.Idx → EReal) (b1 : S256.Idx → EReal) (w2 : S1x256.Idx → EReal)
    (b2 : S1.Idx → EReal) (r : Fin 5000) (u : Fin 1) (e : Fin 500000)
    (h0 : ∀ j : Fin 256, x0 (ix2 r j) = zs (ix2 e j)) (h1 : ∀ j : Fin 256, x1 (ix2 r j) = zd (ix2 e j))
    (h2 : ∀ j o : Fin 256, x2 (ix2 j o) = w1 (ix2 o (Cert.EdgeScore.lo j)))
    (h3 : ∀ j o : Fin 256, x3 (ix2 j o) = w1 (ix2 o (Cert.EdgeScore.hi j)))
    (h4 : ∀ o : Fin 256, x4 (ix2 (0 : Fin 1) o) = b1 (ix1 o)) (h5 : ∀ o : Fin 256, x5 (ix2 o (0 : Fin 1)) = w2 (ix2 (0 : Fin 1) o))
    (h6 : x6 (ix2 (0 : Fin 1) (0 : Fin 1)) = b2 (ix1 (0 : Fin 1))) :
    k0_pay1 (F := Ideal) x0 x1 x2 x3 x4 x5 x6 (ix2 r u) = Cert.EdgeScore.scores zs zd w1 b1 w2 b2 (ix1 e) := by
  rw [payload_apply]
  simp only [h0, h1, h2, h3, h4, h5, h6]
  rfl

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the two row-blocked inputs and the output are at block `(t, 0)`, the five
    small operands at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## Each window's block at a point, as entries of the array the region found -/

theorem src_block (c : Dev nD) (t : Fin cfg0.N) (r : Fin 5000) (j : Fin 256) (e : Fin 500000) (he : e.val = t.val * 5000 + r.val) :
    (iblk m c 0 t : Vec Ideal S5000x256 .f32) (ix2 r j) = (V m c main_v4 : S500000x256.Idx → EReal) (ix2 e j) := by
  obtain ⟨e0, e1, -⟩ := idx_facts t
  unfold iblk
  rw [View.read_apply]
  show (V m c main_v4 : S500000x256.Idx → EReal) _ = (V m c main_v4 : S500000x256.Idx → EReal) _
  congr 1
  funext a
  apply Fin.ext
  match a with
  | ⟨0, _⟩ => show win0_0.index t (0 : Fin 2) * 5000 + 1 * r.val = e.val; omega
  | ⟨1, _⟩ => show win0_0.index t (1 : Fin 2) * 256 + 1 * j.val = j.val; omega

theorem dst_block (c : Dev nD) (t : Fin cfg0.N) (r : Fin 5000) (j : Fin 256) (e : Fin 500000) (he : e.val = t.val * 5000 + r.val) :
    (iblk m c 1 t : Vec Ideal S5000x256 .f32) (ix2 r j) = (V m c main_v5 : S500000x256.Idx → EReal) (ix2 e j) := by
  obtain ⟨-, -, e0, e1, -⟩ := idx_facts t
  unfold iblk
  rw [View.read_apply]
  show (V m c main_v5 : S500000x256.Idx → EReal) _ = (V m c main_v5 : S500000x256.Idx → EReal) _
  congr 1
  funext a
  apply Fin.ext
  match a with
  | ⟨0, _⟩ => show win0_1.index t (0 : Fin 2) * 5000 + 1 * r.val = e.val; omega
  | ⟨1, _⟩ => show win0_1.index t (1 : Fin 2) * 256 + 1 * j.val = j.val; omega

theorem w1a_block (c : Dev nD) (t : Fin cfg0.N) (j o : Fin 256) :
    (iblk m c 2 t : Vec Ideal S256x256 .f32) (ix2 j o) = (V m c main_v7 : S256x256.Idx → EReal) (ix2 j o) := by
  obtain ⟨-, -, -, -, e0, e1, -⟩ := idx_facts t
  unfold iblk
  rw [View.read_apply]
  show (V m c main_v7 : S256x256.Idx → EReal) _ = (V m c main_v7 : S256x256.Idx → EReal) _
  congr 1
  funext a
  apply Fin.ext
  match a with
  | ⟨0, _⟩ => show win0_2.index t (0 : Fin 2) * 256 + 1 * j.val = j.val; omega
  | ⟨1, _⟩ => show win0_2.index t (1 : Fin 2) * 256 + 1 * o.val = o.val; omega

theorem w1b_block (c : Dev nD) (t : Fin cfg0.N) (j o : Fin 256) :
    (iblk m c 3 t : Vec Ideal S256x256 .f32) (ix2 j o) = (V m c main_v9 : S256x256.Idx → EReal) (ix2 j o) := by
  obtain ⟨-, -, -, -, -, -, e0, e1, -⟩ := idx_facts t
  unfold iblk
  rw [View.read_apply]
  show (V m c main_v9 : S256x256.Idx → EReal) _ = (V m c main_v9 : S256x256.Idx → EReal) _
  congr 1
  funext a
  apply Fin.ext
  match a with
  | ⟨0, _⟩ => show win0_3.index t (0 : Fin 2) * 256 + 1 * j.val = j.val; omega
  | ⟨1, _⟩ => show win0_3.index t (1 : Fin 2) * 256 + 1 * o.val = o.val; omega

theorem b1_block (c : Dev nD) (t : Fin cfg0.N) (o : Fin 256) :
    (iblk m c 4 t : Vec Ideal S1x256 .f32) (ix2 (0 : Fin 1) o) = (V m c main_v11 : S1x256.Idx → EReal) (ix2 (0 : Fin 1) o) := by
  obtain ⟨-, -, -, -, -, -, -, -, e0, e1, -⟩ := idx_facts t
  unfold iblk
  rw [View.read_apply]
  show (V m c main_v11 : S1x256.Idx → EReal) _ = (V m c main_v11 : S1x256.Idx → EReal) _
  congr 1
  funext a
  apply Fin.ext
  match a with
  | ⟨0, _⟩ => show win0_4.index t (0 : Fin 2) * 1 + 1 * 0 = 0; omega
  | ⟨1, _⟩ => show win0_4.index t (1 : Fin 2) * 256 + 1 * o.val = o.val; omega

theorem w2_block (c : Dev nD) (t : Fin cfg0.N) (o : Fin 256) :
    (iblk m c 5 t : Vec Ideal S256x1 .f32) (ix2 o (0 : Fin 1)) = (V m c main_v10 : S256x1.Idx → EReal) (ix2 o (0 : Fin 1)) := by
  obtain ⟨-, -, -, -, -, -, -, -, -, -, e0, e1, -⟩ := idx_facts t
  unfold iblk
  rw [View.read_apply]
  show (V m c main_v10 : S256x1.Idx → EReal) _ = (V m c main_v10 : S256x1.Idx → EReal) _
  congr 1
  funext a
  apply Fin.ext
  match a with
  | ⟨0, _⟩ => show win0_5.index t (0 : Fin 2) * 256 + 1 * o.val = o.val; omega
  | ⟨1, _⟩ => show win0_5.index t (1 : Fin 2) * 1 + 1 * 0 = 0; omega

theorem b2_block (c : Dev nD) (t : Fin cfg0.N) :
    (iblk m c 6 t : Vec Ideal S1x1 .f32) (ix2 (0 : Fin 1) (0 : Fin 1)) = (V m c main_v12 : S1x1.Idx → EReal) (ix2 (0 : Fin 1) (0 : Fin 1)) := by
  obtain ⟨-, -, -, -, -, -, -, -, -, -, -, -, e0, e1, -⟩ := idx_facts t
  unfold iblk
  rw [View.read_apply]
  show (V m c main_v12 : S1x1.Idx → EReal) _ = (V m c main_v12 : S1x1.Idx → EReal) _
  congr 1
  funext a
  apply Fin.ext
  match a with
  | ⟨0, _⟩ => show win0_6.index t (0 : Fin 2) * 1 + 1 * 0 = 0; omega
  | ⟨1, _⟩ => show win0_6.index t (1 : Fin 2) * 1 + 1 * 0 = 0; omega

/-! ## The output column -/

/-- The source rows of the edges: the first table's rows at the normalised source endpoints. -/
abbrev srcRows (c : Dev nD) : S500000x256.Idx → EReal :=
  takeRows (F := Ideal) (m ((c : Thread nD τ).loc main_arg0)) (srcIdx (m ((c : Thread nD τ).loc main_arg2)))
/-- The destination rows of the edges. -/
abbrev dstRows (c : Dev nD) : S500000x256.Idx → EReal :=
  takeRows (F := Ideal) (m ((c : Thread nD τ).loc main_arg1)) (dstIdx (m ((c : Thread nD τ).loc main_arg2)))

/-- The scores of all edges, as a function of the argument arrays. -/
abbrev scoresOf (c : Dev nD) : S500000.Idx → EReal :=
  Cert.EdgeScore.scores (srcRows m c) (dstRows m c) (m ((c : Thread nD τ).loc main_arg3)) (m ((c : Thread nD τ).loc main_arg4))
    (m ((c : Thread nD τ).loc main_arg5)) (m ((c : Thread nD τ).loc main_arg6))

/-- The same as the `[500000, 1]` column the region writes. -/
def scoreCol (c : Dev nD) : Buf (Elt Ideal) ((c : Thread nD τ).loc main_v13) :=
  fun i : S500000x1.Idx => scoresOf m c (ix1 (i 0))

/-- Every entry of the index array in `[-100000, 100000)`: what the precondition gives. -/
def InRange (c : Dev nD) : Prop :=
  ∀ i : S2x500000.Idx, (-100000 : ℤ) ≤ ((m ((c : Thread nD τ).loc main_arg2) : IVec S2x500000 32) i).toInt
    ∧ ((m ((c : Thread nD τ).loc main_arg2) : IVec S2x500000 32) i).toInt < 100000

theorem src_entry (c : Dev nD) (h : InRange m c) : (V m c main_v4 : S500000x256.Idx → EReal) = srcRows m c := by
  rw [entry_src]
  exact takeFill_eq _ _ (srcIdx_range _ h)

theorem dst_entry (c : Dev nD) (h : InRange m c) : (V m c main_v5 : S500000x256.Idx → EReal) = dstRows m c := by
  rw [entry_dst]
  exact takeFill_eq _ _ (dstIdx_range _ h)

/-- The body's value at index `z` of point `t`'s block is the score of edge `5000 t + z₀`. -/
theorem point_score (c : Dev nD) (h : InRange m c) (t : Fin cfg0.N) (z : S5000x1.Idx) (e : Fin 500000)
    (he : e.val = t.val * 5000 + (z 0).val) :
    k0_pay1 (F := Ideal) (iblk m c 0 t) (iblk m c 1 t) (iblk m c 2 t) (iblk m c 3 t) (iblk m c 4 t) (iblk m c 5 t) (iblk m c 6 t) z
      = scoresOf m c (ix1 e) := by
  obtain ⟨r, u, rfl⟩ : ∃ (r : Fin 5000) (u : Fin 1), z = ix2 r u := ⟨z 0, z 1, eq_ix2 z⟩
  refine block_score (iblk m c 0 t) (iblk m c 1 t) (iblk m c 2 t) (iblk m c 3 t) (iblk m c 4 t) (iblk m c 5 t) (iblk m c 6 t)
    (srcRows m c) (dstRows m c) (m ((c : Thread nD τ).loc main_arg3)) (m ((c : Thread nD τ).loc main_arg4))
    (m ((c : Thread nD τ).loc main_arg5)) (m ((c : Thread nD τ).loc main_arg6)) r u e ?_ ?_ ?_ ?_ ?_ ?_ ?_
  · intro j; rw [src_block m c t r j e he, src_entry m c h]
  · intro j; rw [dst_block m c t r j e he, dst_entry m c h]
  · intro j o; rw [w1a_block m c t j o, w1a_at m c j o]
  · intro j o; rw [w1b_block m c t j o, w1b_at m c j o]
  · intro o; rw [b1_block m c t o, b1_at m c o]
  · intro o; rw [w2_block m c t o, w2_at m c o]
  · rw [b2_block m c t, b2_at m c]

/-- WHAT POINT `t` WRITES BACK is block `t` of the score column. -/
theorem flushed_eq (c : Dev nD) (h : InRange m c) (t : Fin cfg0.N) :
    (dats m 0 c).flushed 7 t = ((cfg0.win 7).blk t).view.read (Elt Ideal) (scoreCol m c) := by
  show (cfg0.win 7).cut (grid0.coords t) ((dats m 0 c).after 7 t) = _
  rw [after0_7]
  unfold out0_7
  rw [View.canon_unit_zero hz]
  simp only [View.ld_unit_zero (S := S5000x256) hz, View.ld_unit_zero (S := S256x256) hz, View.ld_unit_zero (S := S1x256) hz,
    View.ld_unit_zero (S := S256x1) hz, View.ld_unit_zero (S := S1x1) hz]
  obtain ⟨-, -, -, -, -, -, -, -, -, -, -, -, -, -, e0, e1⟩ := idx_facts t
  have hN : cfg0.N = 100 := N_0
  funext y
  have hy0 : (y 0).val < 5000 := (y 0).isLt
  have hy1 : (y 1).val < 1 := (y 1).isLt
  have ht : t.val < 100 := hN ▸ t.isLt
  rw [View.read_apply]
  refine (point_score m c h t ((cfg0.win 7).xinj (grid0.coords t) y) ⟨t.val * 5000 + (y 0).val, by omega⟩ rfl).trans ?_
  unfold scoreCol
  refine congrArg (fun k : Fin 500000 => scoresOf m c (ix1 k)) (Fin.ext ?_)
  show t.val * 5000 + (y 0).val = win0_7.index t (0 : Fin 2) * 5000 + 1 * (y 0).val
  omega

/-- An index of the output is in point `t`'s block iff each coordinate is in the block's range on its axis. -/
theorem mem_blk (t : Fin cfg0.N) (i : S500000x1.Idx) :
    i ∈ ((cfg0.win 7).blk t).view.set ↔ ∀ a : Fin 2, win0_7.index t a * S5000x1.size a ≤ (i a).val
      ∧ (i a).val < win0_7.index t a * S5000x1.size a + S5000x1.size a := by
  show i ∈ ((View.whole main_v13).slice (win0_7.rect t)).set ↔ _
  rw [View.set_slice_whole, Rect.mem_set_unit]
  exact Iff.rfl

/-- The 100 blocks tile the output: row `i₀` is in the block of point `i₀ / 5000`. -/
theorem cover (i : S500000x1.Idx) : ∃ t : Fin cfg0.N, (cfg0.win 7).flush t = true ∧ i ∈ ((cfg0.win 7).blk t).view.set := by
  have hi0 : (i 0).val < 500000 := (i 0).isLt
  have hi1 : (i 1).val < 1 := (i 1).isLt
  have hN : cfg0.N = 100 := N_0
  have hq : (i 0).val / 5000 < cfg0.N := by rw [hN]; omega
  obtain ⟨-, -, -, -, -, -, -, -, -, -, -, -, -, -, e0, e1⟩ := idx_facts ⟨(i 0).val / 5000, hq⟩
  refine ⟨⟨(i 0).val / 5000, hq⟩, flush0_7 _, ?_⟩
  rw [mem_blk]
  intro a
  match a with
  | ⟨0, _⟩ =>
    show win0_7.index ⟨(i 0).val / 5000, hq⟩ (0 : Fin 2) * 5000 ≤ (i 0).val
      ∧ (i 0).val < win0_7.index ⟨(i 0).val / 5000, hq⟩ (0 : Fin 2) * 5000 + 5000
    rw [e0]; show (i 0).val / 5000 * 5000 ≤ (i 0).val ∧ (i 0).val < (i 0).val / 5000 * 5000 + 5000; omega
  | ⟨1, _⟩ =>
    show win0_7.index ⟨(i 0).val / 5000, hq⟩ (1 : Fin 2) * 1 ≤ (i 1).val
      ∧ (i 1).val < win0_7.index ⟨(i 0).val / 5000, hq⟩ (1 : Fin 2) * 1 + 1
    rw [e1]; omega

/-- So the output ends as the score column. -/
theorem final_col (c : Dev nD) (h : InRange m c) : (dats m 0 c).arrAt 7 cfg0.N = scoreCol m c :=
  (dats m 0 c).arrAt_eq_of_cover 7 (scoreCol m c) (fun t _ => flushed_eq m c h t) cover

/-- A `[500000, 1]` column laid out as a vector reads, at `i`, the column at `(i, 0)`. -/
theorem flat_col (x : S500000x1.Idx → EReal) (i : S500000.Idx) :
    shapeCast S500000 x shapeCasts_S500000x1_S500000 i = x (ix2 (⟨(i 0).val, (i 0).isLt⟩ : Fin 500000) (0 : Fin 1)) :=
  shapeCast_apply x shapeCasts_S500000x1_S500000 i (ix2 (⟨(i 0).val, (i 0).isLt⟩ : Fin 500000) (0 : Fin 1))
    (by rewrite [Shape.rowMajor_val_two, Shape.rowMajor_val_one]; show (i 0).val * 1 + 0 = (i 0).val; omega)

/-- The score column laid out as a vector is the vector of scores. -/
theorem scoreCol_flat (c : Dev nD) :
    shapeCast S500000 (scoreCol m c : S500000x1.Idx → EReal) shapeCasts_S500000x1_S500000 = scoresOf m c := by
  funext i
  rw [flat_col]
  unfold scoreCol
  exact congrArg (scoresOf m c) (eq_ix1 i).symm

set_option maxHeartbeats 1000000 in
/-- The reshape after the region reads the output the region left. -/
theorem tail_result (c : Dev nD) (h : InRange m c) :
    Pipeline.afterTail₀ cfgs (dats m) 0 (V0 m) [hostOps1] c main_v14 = scoresOf m c := by
  unfold Pipeline.afterTail₀
  show StableHlo.after hostOps1 _ (Proc.devRef .tc main_v14) = _
  after_results
  have e : Pipeline.withArrays (cfgs 0).spec c (V0 m c) (fun w => (dats m 0 c).arrAt w (cfgs 0).N) (Proc.devRef .tc main_v13)
      = scoreCol m c := (Pipeline.withArrays_arr spec0 launch0.win.arr_inj c _ _ 7).trans (final_col m c h)
  rw [e]
  exact scoreCol_flat m c

/-- THE RUN, READ: every weakly fair execution ends with the result at the vector of edge scores and the arguments as
    they were. -/
theorem run (h : ∀ c, InRange m c) :
    θ_run defs (onTc (τ := τ) (main (F := Ideal))) ⟨m, fun _ => 0, ρ⟩ fun r => ∀ c : Dev nD,
      r.2.mem ((c.tc : Thread nD τ).loc main_v14) = scoresOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r hr c =>
    ⟨((hr c).2 main_v14 (Pipeline.mem_restRefs_of main_v14 (by decide) (by decide))).trans (tail_result m c (h c)),
      ((hr c).2 main_arg0 (Pipeline.mem_restRefs_of main_arg0 (by decide) (by decide))).trans (W_main_arg0 m (dats m) c),
      ((hr c).2 main_arg1 (Pipeline.mem_restRefs_of main_arg1 (by decide) (by decide))).trans (W_main_arg1 m (dats m) c),
      ((hr c).2 main_arg2 (Pipeline.mem_restRefs_of main_arg2 (by decide) (by decide))).trans (W_main_arg2 m (dats m) c),
      ((hr c).2 main_arg3 (Pipeline.mem_restRefs_of main_arg3 (by decide) (by decide))).trans (W_main_arg3 m (dats m) c),
      ((hr c).2 main_arg4 (Pipeline.mem_restRefs_of main_arg4 (by decide) (by decide))).trans (W_main_arg4 m (dats m) c),
      ((hr c).2 main_arg5 (Pipeline.mem_restRefs_of main_arg5 (by decide) (by decide))).trans (W_main_arg5 m (dats m) c),
      ((hr c).2 main_arg6 (Pipeline.mem_restRefs_of main_arg6 (by decide) (by decide))).trans (W_main_arg6 m (dats m) c)⟩)
    (run_main m ρ)

end Cert.KernelIdeal.Hand

end
-- ==== Proof.RefScores.lean ====
/-
  The reference program's result, read stage by stage, is the edge scorer's specification.

  The two gathered arrays (the source rows and the destination rows of the edges) are kept as they are: nothing here
  reads a gather at an index. Every later stage is read at explicit coordinates: edge `e`, hidden unit `o`.
    * the concatenation at column `j` of its first half is the source row at `j`, at column `256 + j` the destination row at `j`;
    * the first contraction, a sum over 512 columns, is cut into its two halves, which is the hidden unit of the specification
      once the broadcast bias is added;
    * the rectification is the maximum with the broadcast zero word, which is the extended real `0`;
    * the second contraction plus the broadcast second bias is the argument of the logistic function;
    * `1 / (1 + exp (-x))` with both constants the word of `1` is the logistic function by definition, and the final
      reshape of a `[500000, 1]` array to `[500000]` keeps the edge coordinate.
-/
import proofs.«401217_j81071802679526_1_alg».proof.Proof.Gen.ReferenceIdeal.Read
import proofs.«401217_j81071802679526_1_alg».proof.Proof.Spec
import Idealize.ShloMosaic.Lib.ValueIdx
import Idealize.ShloMosaic.Lib.Pipeline.Value
import Idealize.ShloMosaic.PureOps.Ideal.Laws

noncomputable section

namespace Cert.ReferenceIdeal.Hand

open Cert.ReferenceIdeal Cert.ReferenceIdeal.Gen Cert.ReferenceIdeal.Read Idealize.ShloMosaic Idealize.ShloMosaic.ValueIdx

/-! ### The two constant words -/

/-- The word `0x3F800000` is the extended real `1`. -/
theorem one_word : (FloatOps.ofBits (F := Ideal) .f32 0x3F800000#32 : EReal) = 1 := by
  show Ideal.ofBits .f32 0x3F800000#32 = 1
  simp [Ideal.ofBits, Ideal.ieee, -EReal.coe_mul]; norm_num

/-- The zero word is the extended real `0`. -/
theorem zero_word : (FloatOps.ofBits (F := Ideal) .f32 0x00000000#32 : EReal) = 0 :=
  Ideal.ofBits_zero_f32

/-! ### The concatenation at a column of either half -/

/-- At a column of the first half the concatenation reads the source rows. -/
theorem cat_lo (x0 x1 : (⟨S100000x256, .f32⟩ : BufTy).Contents (Elt Ideal)) (x2 : (⟨S2x500000, .i32⟩ : BufTy).Contents (Elt Ideal))
    (e : Fin 500000) (o : Fin 256) (j : Fin 256) :
    val_main_v18 (F := Ideal) x0 x1 x2 (lidx_main_v19 (ix2 e o) (Cert.EdgeScore.lo j))
      = val_main_v10 (F := Ideal) x0 x2 (ix2 e j) := by
  unfold val_main_v18
  exact concatenate_pair_apply_left 1 _ _ concatenates_S500000x256_S500000x256_S500000x512_d1
    (lidx_main_v19 (ix2 e o) (Cert.EdgeScore.lo j)) rfl (ix2 e j)
    (fun b => match b with
      | ⟨0, _⟩ => rfl
      | ⟨1, _⟩ => rfl)

/-- At a column of the second half the concatenation reads the destination rows. -/
theorem cat_hi (x0 x1 : (⟨S100000x256, .f32⟩ : BufTy).Contents (Elt Ideal)) (x2 : (⟨S2x500000, .i32⟩ : BufTy).Contents (Elt Ideal))
    (e : Fin 500000) (o : Fin 256) (j : Fin 256) :
    val_main_v18 (F := Ideal) x0 x1 x2 (lidx_main_v19 (ix2 e o) (Cert.EdgeScore.hi j))
      = val_main_v17 (F := Ideal) x1 x2 (ix2 e j) := by
  unfold val_main_v18
  exact concatenate_pair_apply_right 1 _ _ concatenates_S500000x256_S500000x256_S500000x512_d1
    (lidx_main_v19 (ix2 e o) (Cert.EdgeScore.hi j)) rfl rfl (ix2 e j)
    (fun b => match b with
      | ⟨0, _⟩ => fun _ => rfl
      | ⟨1, _⟩ => fun h => absurd rfl h)
    (by show j.val + 256 = 256 + j.val; omega)

/-! ### The composed index functions at coordinates -/

theorem ridx19 (e : Fin 500000) (o : Fin 256) (k : Fin 512) : ridx_main_v19 (ix2 e o) k = ix2 o k :=
  funext fun a => Fin.ext (by match a with | ⟨0, _⟩ => rfl | ⟨1, _⟩ => rfl)

theorem idx20_21 (e : Fin 500000) (o : Fin 256) : idx_main_v20 (idx_main_v21 (ix2 e o)) = ix1 o :=
  funext fun a => Fin.ext (by match a with | ⟨0, _⟩ => rfl)

theorem lidx24 (e : Fin 500000) (z : Fin 1) (o : Fin 256) : lidx_main_v24 (ix2 e z) o = ix2 e o :=
  funext fun a => Fin.ext (by match a with | ⟨0, _⟩ => rfl | ⟨1, _⟩ => rfl)

theorem ridx24 (e : Fin 500000) (o : Fin 256) : ridx_main_v24 (ix2 e (0 : Fin 1)) o = ix2 (0 : Fin 1) o :=
  funext fun a => Fin.ext (by match a with | ⟨0, _⟩ => rfl | ⟨1, _⟩ => rfl)

theorem idx25_26 (e : Fin 500000) (z : Fin 1) : idx_main_v25 (idx_main_v26 (ix2 e z)) = ix1 (0 : Fin 1) :=
  funext fun a => Fin.ext (by match a with | ⟨0, _⟩ => rfl)

theorem idx34 (e : Fin 500000) : idx_main_v34 (ix1 e) = ix2 e (0 : Fin 1) :=
  funext fun a => Fin.ext (by
    match a with
    | ⟨0, _⟩ => show e.val / 1 = e.val; exact Nat.div_one _
    | ⟨1, _⟩ => rfl)

/-! ### The stages at coordinates -/

/-- The first layer before rectification is the specification's hidden unit. -/
theorem v22_at (x0 x1 : (⟨S100000x256, .f32⟩ : BufTy).Contents (Elt Ideal)) (x2 : (⟨S2x500000, .i32⟩ : BufTy).Contents (Elt Ideal))
    (x3 : (⟨S256x512, .f32⟩ : BufTy).Contents (Elt Ideal)) (x4 : (⟨S256, .f32⟩ : BufTy).Contents (Elt Ideal))
    (e : Fin 500000) (o : Fin 256) :
    val_main_v22 (F := Ideal) x0 x1 x2 x3 x4 (ix2 e o)
      = Cert.EdgeScore.hidden (val_main_v10 (F := Ideal) x0 x2) (val_main_v17 (F := Ideal) x1 x2) x3 x4 e o := by
  rw [val_main_v22_apply, val_main_v19_apply, val_main_v21_apply, val_main_v20_apply, idx20_21,
    Cert.EdgeScore.sum_halves]
  simp only [cat_lo, cat_hi, ridx19]
  rfl

/-- The rectified first layer. -/
theorem v23_at (x0 x1 : (⟨S100000x256, .f32⟩ : BufTy).Contents (Elt Ideal)) (x2 : (⟨S2x500000, .i32⟩ : BufTy).Contents (Elt Ideal))
    (x3 : (⟨S256x512, .f32⟩ : BufTy).Contents (Elt Ideal)) (x4 : (⟨S256, .f32⟩ : BufTy).Contents (Elt Ideal))
    (e : Fin 500000) (o : Fin 256) :
    val_main_v23 (F := Ideal) x0 x1 x2 x3 x4 (ix2 e o)
      = max (Cert.EdgeScore.hidden (val_main_v10 (F := Ideal) x0 x2) (val_main_v17 (F := Ideal) x1 x2) x3 x4 e o) 0 := by
  rw [val_main_v23_apply, v22_at, val_main_call0_v0_apply, val_main_call0_cst_apply, zero_word]
  rfl

/-- The second layer with its bias: the argument of the logistic function. -/
theorem v27_at (x0 x1 : (⟨S100000x256, .f32⟩ : BufTy).Contents (Elt Ideal)) (x2 : (⟨S2x500000, .i32⟩ : BufTy).Contents (Elt Ideal))
    (x3 : (⟨S256x512, .f32⟩ : BufTy).Contents (Elt Ideal)) (x4 : (⟨S256, .f32⟩ : BufTy).Contents (Elt Ideal))
    (x5 : (⟨S1x256, .f32⟩ : BufTy).Contents (Elt Ideal)) (x6 : (⟨S1, .f32⟩ : BufTy).Contents (Elt Ideal))
    (e : Fin 500000) :
    val_main_v27 (F := Ideal) x0 x1 x2 x3 x4 x5 x6 (ix2 e (0 : Fin 1))
      = (∑ o : Fin 256, max (Cert.EdgeScore.hidden (val_main_v10 (F := Ideal) x0 x2) (val_main_v17 (F := Ideal) x1 x2) x3 x4 e o) 0
            * x5 (ix2 (0 : Fin 1) o)) + x6 (ix1 (0 : Fin 1)) := by
  rw [val_main_v27_apply, val_main_v24_apply, val_main_v26_apply, val_main_v25_apply, idx25_26]
  simp only [lidx24, ridx24, v23_at]
  rfl

theorem ref_scores (x0 x1 : (⟨S100000x256, .f32⟩ : BufTy).Contents (Elt Ideal)) (x2 : (⟨S2x500000, .i32⟩ : BufTy).Contents (Elt Ideal))
    (x3 : (⟨S256x512, .f32⟩ : BufTy).Contents (Elt Ideal)) (x4 : (⟨S256, .f32⟩ : BufTy).Contents (Elt Ideal))
    (x5 : (⟨S1x256, .f32⟩ : BufTy).Contents (Elt Ideal)) (x6 : (⟨S1, .f32⟩ : BufTy).Contents (Elt Ideal)) :
    val_main_v34 (F := Ideal) x0 x1 x2 x3 x4 x5 x6
      = Cert.EdgeScore.scores (val_main_v10 (F := Ideal) x0 x2) (val_main_v17 (F := Ideal) x1 x2) x3 x4 x5 x6 := by
  funext i
  obtain ⟨e, rfl⟩ : ∃ e : Fin 500000, i = ix1 e := ⟨i 0, eq_ix1 i⟩
  rw [val_main_v34_apply, idx34, val_main_v33_apply, val_main_v32_apply, val_main_cst_3_apply, val_main_v31_apply,
    val_main_v30_apply, val_main_cst_apply, val_main_v29_apply, val_main_v28_apply, v27_at, one_word]
  rfl

end Cert.ReferenceIdeal.Hand

end
-- ==== Proof.lean ====
/-
  The certificate of the edge scorer: a fused two-layer perceptron over gathered endpoint rows against its reference.

  Both programs first gather, for each of 500000 edges, a source row of one 100000-row table and a destination row of
  another, at indices normalised the usual way (a negative index counts from the end). The kernel's gather (a take in
  fill mode) fills a row with a
  not-a-number pattern when its index falls outside the table, where the reference's indexing clamps; the precondition
  keeps every index in `[-100000, 100000)`, the range in which the reference indexes inside its table, and there both
  gather the same rows. The kernel then computes, per block of 5000 edges, the first layer as two products (source rows
  against the first half of each weight row, destination rows against the second half) added together, where the
  reference takes one product of the concatenated rows against the whole weight rows: a sum over 512 positions cut in
  two, which on the extended reals needs no side condition. Bias, rectification, the second layer and the logistic
  function are the same expressions on both sides (changes of float format are the identity on the extended reals, and
  the kernel's logistic operation is by definition `1 / (1 + exp (-x))`, which is what the reference spells out).

  The frames of the two kernel programs are the generated ones; the reference's frame is its generated run with the
  result dropped; the idealization rewrote nothing, so there is nothing to preserve. The finiteness part of the
  precondition is never used.
-/
import proofs.«401217_j81071802679526_1_alg».proof.Defs
import proofs.«401217_j81071802679526_1_alg».proof.Proof.Gen.Kernel
import proofs.«401217_j81071802679526_1_alg».proof.Proof.Gen.Kernel.Frame
import proofs.«401217_j81071802679526_1_alg».proof.Proof.Gen.KernelIdeal
import proofs.«401217_j81071802679526_1_alg».proof.Proof.Gen.KernelIdeal.Frame
import proofs.«401217_j81071802679526_1_alg».proof.Proof.Gen.ReferenceIdeal
import proofs.«401217_j81071802679526_1_alg».proof.Proof.Gen.Pre_finite_inputs
import proofs.«401217_j81071802679526_1_alg».proof.Proof.Gen.ReferenceIdeal.Run
import proofs.«401217_j81071802679526_1_alg».proof.Proof.Gen.ReferenceIdeal.Read
import proofs.«401217_j81071802679526_1_alg».proof.Proof.IndexRange
import proofs.«401217_j81071802679526_1_alg».proof.Proof.KernelValue
import proofs.«401217_j81071802679526_1_alg».proof.Proof.RefScores
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The reference's gathered source rows are the kernel's: the same gather at the same normalised indices. -/
theorem ref_srcRows (x0 : Cert.ReferenceIdeal.S100000x256.Idx → EReal) (x2 : IVec Cert.ReferenceIdeal.S2x500000 32) :
    Cert.ReferenceIdeal.Read.val_main_v10 (F := Ideal) x0 x2
      = Cert.KernelIdeal.Hand.takeRows (F := Ideal) x0 (Cert.KernelIdeal.Hand.srcIdx x2) := rfl

/-- Likewise the destination rows. -/
theorem ref_dstRows (x1 : Cert.ReferenceIdeal.S100000x256.Idx → EReal) (x2 : IVec Cert.ReferenceIdeal.S2x500000 32) :
    Cert.ReferenceIdeal.Read.val_main_v17 (F := Ideal) x1 x2
      = Cert.KernelIdeal.Hand.takeRows (F := Ideal) x1 (Cert.KernelIdeal.Hand.dstIdx x2) := rfl

/-- From memories agreeing on the arguments, with every index in range, both programs end with the vector of edge
    scores as one function of the arguments. -/
theorem algebraic : Cert.algebraic_KernelIdeal_ReferenceIdeal := by
  intro m ρ m' ρ' hpre hagree
  have hr : ∀ c, Cert.KernelIdeal.Hand.InRange m c := fun c i => Cert.EdgeScore.index_range _ _ _ _ _ _ _ (hpre c) i
  refine ⟨fun c => Cert.KernelIdeal.Hand.scoresOf m c, Cert.KernelIdeal.Hand.run m ρ hr, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v34_eq, Cert.ReferenceIdeal.Hand.ref_scores, ref_srcRows, ref_dstRows,
    a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
